-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S96x1024x64 : Shape := ⟨3, ![96, 1024, 64]⟩
abbrev S1 : Shape := ⟨1, ![1]⟩
abbrev S96x1024x1024 : Shape := ⟨3, ![96, 1024, 1024]⟩
abbrev S_ : Shape := ⟨0, ![]⟩

class Facts : Prop where
  bcast_S_S96x1024x64 : S_.BroadcastsInDim S96x1024x64 (![] : Fin 0 → Fin S96x1024x64.rank)
  reducesTo_S96x1024x64_S_d0_1_2 : S96x1024x64.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S96x1024x64 .f32) (main_arg1 : FVec F S96x1024x64 .f32) (main_arg2 : FVec F S96x1024x64 .f32) (main_arg3 : FVec F S1 .f32) (main_arg4 : IVec S96x1024x1024 1) : IVec S_ 1 :=
  let main_v0 : FVec F S96x1024x64 .f32 := Host.absf main_arg0
  let main_cst : FVec F S_ .f32 := constant S_ .f32 0x7F800000#32
  let main_v1 : FVec F S96x1024x64 .f32 := broadcastInDim S96x1024x64 ![] bcast_S_S96x1024x64 main_cst
  let main_v2 : IVec S96x1024x64 1 := cmpf .olt main_v0 main_v1
  let main_c : IVec S_ 1 := constantI S_ 1 1#1
  let main_v3 : IVec S_ 1 := (fun x v => Host.reduce IntOp.andi x v reducesTo_S96x1024x64_S_d0_1_2 h_S_) main_v2 main_c
  let main_v4 : FVec F S96x1024x64 .f32 := Host.absf main_arg1
  let main_cst_0 : FVec F S_ .f32 := constant S_ .f32 0x7F800000#32
  let main_v5 : FVec F S96x1024x64 .f32 := broadcastInDim S96x1024x64 ![] bcast_S_S96x1024x64 main_cst_0
  let main_v6 : IVec S96x1024x64 1 := cmpf .olt main_v4 main_v5
  let main_c_1 : IVec S_ 1 := constantI S_ 1 1#1
  let main_v7 : IVec S_ 1 := (fun x v => Host.reduce IntOp.andi x v reducesTo_S96x1024x64_S_d0_1_2 h_S_) main_v6 main_c_1
  let main_v8 : IVec S_ 1 := andi main_v3 main_v7
  let main_v9 : FVec F S96x1024x64 .f32 := Host.absf main_arg2
  let main_cst_2 : FVec F S_ .f32 := constant S_ .f32 0x7F800000#32
  let main_v10 : FVec F S96x1024x64 .f32 := broadcastInDim S96x1024x64 ![] bcast_S_S96x1024x64 main_cst_2
  let main_v11 : IVec S96x1024x64 1 := cmpf .olt main_v9 main_v10
  let main_c_3 : IVec S_ 1 := constantI S_ 1 1#1
  let main_v12 : IVec S_ 1 := (fun x v => Host.reduce IntOp.andi x v reducesTo_S96x1024x64_S_d0_1_2 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S96x1024x64 : Shape := ⟨3, ![96, 1024, 64]⟩
abbrev S1 : Shape := ⟨1, ![1]⟩
abbrev S96x1024x1024 : Shape := ⟨3, ![96, 1024, 1024]⟩
abbrev S1x256x64 : Shape := ⟨3, ![1, 256, 64]⟩
abbrev S1x1024x64 : Shape := ⟨3, ![1, 1024, 64]⟩
abbrev S1x256x1024 : Shape := ⟨3, ![1, 256, 1024]⟩
abbrev S1x256 : Shape := ⟨2, ![1, 256]⟩
abbrev S1x256x1 : Shape := ⟨3, ![1, 256, 1]⟩

abbrev nBuf : Space → Nat
  | .hbm => 8
  | .vmem => 12
  | .smem => 0
  | _ => 0

abbrev bufTy : (tb : Table) → Fin (tcTables nBuf tb) → BufTy
  | .hbm, ⟨0, _⟩ => ⟨S96x1024x64, .f32⟩
  | .hbm, ⟨1, _⟩ => ⟨S96x1024x64, .f32⟩
  | .hbm, ⟨2, _⟩ => ⟨S96x1024x64, .f32⟩
  | .hbm, ⟨3, _⟩ => ⟨S1, .f32⟩
  | .hbm, ⟨4, _⟩ => ⟨S96x1024x1024, .i1⟩
  | .hbm, ⟨5, _⟩ => ⟨S96x1024x1024, .i32⟩
  | .hbm, ⟨6, _⟩ => ⟨S96x1024x64, .f32⟩
  | .hbm, ⟨7, _⟩ => ⟨S96x1024x1024, .f32⟩
  | .local _ .vmem, ⟨0, _⟩ => ⟨S1x256x64, .f32⟩
  | .local _ .vmem, ⟨1, _⟩ => ⟨S1x256x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x256x1024, .i32⟩
  | .local _ .vmem, ⟨7, _⟩ => ⟨S1x256x1024, .i32⟩
  | .local _ .vmem, ⟨8, _⟩ => ⟨S1x256x64, .f32⟩
  | .local _ .vmem, ⟨9, _⟩ => ⟨S1x256x64, .f32⟩
  | .local _ .vmem, ⟨10, _⟩ => ⟨S1x256x1024, .f32⟩
  | .local _ .vmem, ⟨11, _⟩ => ⟨S1x256x1024, .f32⟩
  | _, _ => ⟨S96x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![96, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x256x64_S1x256x64_0_0_0 : ∀ a, (![0, 0, 0] : Fin 3 → Nat) a + S1x256x64.size a ≤ S1x256x64.size a
  h_S1x256x64 : 0 < S1x256x64.numel
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  inb_S1x256x1024_S1x256x1024_0_0_0 : ∀ a, (![0, 0, 0] : Fin 3 → Nat) a + S1x256x1024.size a ≤ S1x256x1024.size a
  h_S1x256x1024 : 0 < S1x256x1024.numel
  reduces_S1x256x1024_S1x256 : S1x256x1024.Reduces [2] S1x256
  shapeCasts_S1x256_S1x256x1 : S1x256.ShapeCasts S1x256x1
  broadcasts_S1x256x1_S1x256x1024 : S1x256x1.Broadcasts S1x256x1024
  dot_S1x256x64_S1x1024x64_S1x256x1024_2_2_1_1_0_0_wf : DotDims.WF S1x256x64 S1x1024x64 S1x256x1024 [2] [2] [1] [1] [0] [0]
  dot_S1x256x1024_S1x1024x64_S1x256x64_2_1_1_2_0_0_wf : DotDims.WF S1x256x1024 S1x1024x64 S1x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S96x1024x64.size a
  hwx0_0 : ∀ i : grid0.Coords, EltTy.bits .f32 = 32 ∨ (Rect.block (s := S96x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S96x1024x64.size a
  hwx0_1 : ∀ i : grid0.Coords, EltTy.bits .f32 = 32 ∨ (Rect.block (s := S96x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S96x1024x64.size a
  hwx0_2 : ∀ i : grid0.Coords, EltTy.bits .f32 = 32 ∨ (Rect.block (s := S96x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S96x1024x1024.size a
  hwx0_3 : ∀ i : grid0.Coords, EltTy.bits .i32 = 32 ∨ (Rect.block (s := S96x1024x1024) S1x256x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S96x1024x64.size a
  hwx0_4 : ∀ i : grid0.Coords, EltTy.bits .f32 = 32 ∨ (Rect.block (s := S96x1024x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S96x1024x1024.size a
  hwx0_5 : ∀ i : grid0.Coords, EltTy.bits .f32 = 32 ∨ (Rect.block (s := S96x1024x1024) S1x256x1024.size (cc0_transform_5 i) (hinb0_5 i)).WholeWords (EltTy.packing .f32)

variable [Facts₀]

def dot_S1x256x64_S1x1024x64_S1x256x1024_2_2_1_1_0_0 : DotDims S1x256x64 S1x1024x64 S1x256x1024 where
  lhsContracting := [2]
  rhsContracting := [2]
  lhsNonContracting := [1]
  rhsNonContracting := [1]
  lhsBatch := [0]
  rhsBatch := [0]
  wf := dot_S1x256x64_S1x1024x64_S1x256x1024_2_2_1_1_0_0_wf
def dot_S1x256x1024_S1x1024x64_S1x256x64_2_1_1_2_0_0 : DotDims S1x256x1024 S1x1024x64 S1x256x64 where
  lhsContracting := [2]
  rhsContracting := [1]
  lhsNonContracting := [1]
  rhsNonContracting := [2]
  lhsBatch := [0]
  rhsBatch := [0]
  wf := dot_S1x256x1024_S1x1024x64_S1x256x64_2_1_1_2_0_0_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S96x1024x64 : Shape := ⟨3, ![96, 1024, 64]⟩
abbrev S1 : Shape := ⟨1, ![1]⟩
abbrev S96x1024x1024 : Shape := ⟨3, ![96, 1024, 1024]⟩
abbrev S_ : Shape := ⟨0, ![]⟩
abbrev S96x1024 : Shape := ⟨2, ![96, 1024]⟩
abbrev S96x1024x1 : Shape := ⟨3, ![96, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S96x1024x64, .f32⟩
  | .hbm, ⟨1, _⟩ => ⟨S96x1024x64, .f32⟩
  | .hbm, ⟨2, _⟩ => ⟨S96x1024x64, .f32⟩
  | .hbm, ⟨3, _⟩ => ⟨S1, .f32⟩
  | .hbm, ⟨4, _⟩ => ⟨S96x1024x1024, .i1⟩
  | .hbm, ⟨5, _⟩ => ⟨S96x1024x1024, .f32⟩
  | .hbm, ⟨6, _⟩ => ⟨S_, .f32⟩
  | .hbm, ⟨7, _⟩ => ⟨S96x1024x1024, .f32⟩
  | .hbm, ⟨8, _⟩ => ⟨S96x1024x1024, .f32⟩
  | .hbm, ⟨9, _⟩ => ⟨S_, .f32⟩
  | .hbm, ⟨10, _⟩ => ⟨S_, .f32⟩
  | .hbm, ⟨11, _⟩ => ⟨S96x1024x1024, .f32⟩
  | .hbm, ⟨12, _⟩ => ⟨S96x1024x1024, .f32⟩
  | .hbm, ⟨13, _⟩ => ⟨S_, .f32⟩
  | .hbm, ⟨14, _⟩ => ⟨S96x1024, .f32⟩
  | .hbm, ⟨15, _⟩ => ⟨S_, .f32⟩
  | .hbm, ⟨16, _⟩ => ⟨S96x1024, .f32⟩
  | .hbm, ⟨17, _⟩ => ⟨S96x1024, .f32⟩
  | .hbm, ⟨18, _⟩ => ⟨S96x1024x1, .f32⟩
  | .hbm, ⟨19, _⟩ => ⟨S96x1024x1024, .f32⟩
  | .hbm, ⟨20, _⟩ => ⟨S96x1024x1024, .f32⟩
  | .hbm, ⟨21, _⟩ => ⟨S96x1024x1024, .f32⟩
  | .hbm, ⟨22, _⟩ => ⟨S_, .f32⟩
  | .hbm, ⟨23, _⟩ => ⟨S96x1024, .f32⟩
  | .hbm, ⟨24, _⟩ => ⟨S96x1024x1, .f32⟩
  | .hbm, ⟨25, _⟩ => ⟨S96x1024x1024, .f32⟩
  | .hbm, ⟨26, _⟩ => ⟨S96x1024x1024, .f32⟩
  | .hbm, ⟨27, _⟩ => ⟨S96x1024x64, .f32⟩
  | _, _ => ⟨S96x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S96x1024x1024 : S_.BroadcastsInDim S96x1024x1024 (![] : Fin 0 → Fin S96x1024x1024.rank)
  reducesTo_S96x1024x1024_S96x1024_d2 : S96x1024x1024.ReducesTo [2] S96x1024
  h_S_ : 0 < S_.numel
  bcast_S_S96x1024 : S_.BroadcastsInDim S96x1024 (![] : Fin 0 → Fin S96x1024.rank)
  bcast_S96x1024_S96x1024x1_0_1 : S96x1024.BroadcastsInDim S96x1024x1 (![0, 1] : Fin 2 → Fin S96x1024x1.rank)
  bcast_S96x1024x1_S96x1024x1024_0_1_2 : S96x1024x1.BroadcastsInDim S96x1024x1024 (![0, 1, 2] : Fin 3 → Fin S96x1024x1024.rank)
  dot_S96x1024x64_S96x1024x64_S96x1024x1024_2_2_1_1_0_0_wf : DotDims.WF S96x1024x64 S96x1024x64 S96x1024x1024 [2] [2] [1] [1] [0] [0]
  dot_S96x1024x1024_S96x1024x64_S96x1024x64_2_1_1_2_0_0_wf : DotDims.WF S96x1024x1024 S96x1024x64 S96x1024x64 [2] [1] [1] [2] [0] [0]

variable [Facts₀]

def dot_S96x1024x64_S96x1024x64_S96x1024x1024_2_2_1_1_0_0 : DotDims S96x1024x64 S96x1024x64 S96x1024x1024 where
  lhsContracting := [2]
  rhsContracting := [2]
  lhsNonContracting := [1]
  rhsNonContracting := [1]
  lhsBatch := [0]
  rhsBatch := [0]
  wf := dot_S96x1024x64_S96x1024x64_S96x1024x1024_2_2_1_1_0_0_wf
def dot_S96x1024x1024_S96x1024x64_S96x1024x64_2_1_1_2_0_0 : DotDims S96x1024x1024 S96x1024x64 S96x1024x64 where
  lhsContracting := [2]
  rhsContracting := [1]
  lhsNonContracting := [1]
  rhsNonContracting := [2]
  lhsBatch := [0]
  rhsBatch := [0]
  wf := dot_S96x1024x1024_S96x1024x64_S96x1024x64_2_1_1_2_0_0_wf

class Facts : Prop extends Facts₀ where

variable [Facts]
-- ==== Proof.Softmax.lean ====
/-
  Masked scaled-dot-product attention, as plain mathematics on the extended reals.

  For one batch entry and one query row the scores against the 1024 keys are masked (a set mask bit replaces the
  score by a fixed finite filler), the row maximum is subtracted, the exponential is taken, and the row is divided
  by its sum: a softmax. The attention output is the softmax row contracted against the value rows.

  The two programs differ in one place only: where the temperature 8 is applied. One divides the whole score
  by 8; the other multiplies each query entry by 1/8 before the contraction. Over finite reals these agree,
  because a finite factor moves across a finite sum ("score_scaling"); everything after the scores is the same
  function of the same masked scores.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Attention

/-! ## The float literals the two programs spell -/

/-- The pattern of 0.125 denotes the real 1/8. -/
theorem lit_eighth : Ideal.ofBits .f32 0x3E000000#32 = ((1 / 8 : ℝ) : EReal) := by
  simp [Ideal.ofBits, Ideal.ieee, -EReal.coe_mul]; norm_num

/-- The pattern of 8.0 denotes the real 8. -/
theorem lit_eight : Ideal.ofBits .f32 0x41000000#32 = ((8 : ℝ) : EReal) := by
  simp [Ideal.ofBits, Ideal.ieee, -EReal.coe_mul]; norm_num

/-- The pattern of minus infinity denotes the bottom of the extended reals. -/
theorem lit_negInf : Ideal.ofBits .f32 0xFF800000#32 = (⊥ : EReal) := by
  simp [Ideal.ofBits, Ideal.ieee]

/-! ## One row of the softmax -/

/-- The maximum of a row of 1024 extended reals (the fold of max from the bottom element). -/
def rowMax (s : Fin 1024 → EReal) : EReal := (Finset.univ : Finset (Fin 1024)).fold max ⊥ s

/-- The shifted exponential: e to the (entry minus the row maximum). -/
def rowExp (s : Fin 1024 → EReal) (j : Fin 1024) : EReal := Ideal.exp (s j - rowMax s)

/-- The softmax of a row at position j. -/
def softmaxRow (s : Fin 1024 → EReal) (j : Fin 1024) : EReal := Ideal.div (rowExp s j) (∑ j', rowExp s j')

/-- A row of scores with the masked positions replaced by the filler (the pattern of -1e10, never evaluated). -/
def maskedRow (sc : Fin 1024 → EReal) (mk : Fin 1024 → BitVec 1) : Fin 1024 → EReal :=
  fun j => Scalar.select (mk j) (Ideal.ofBits .f32 0xD01502F9#32) (sc j)

/-! ## The whole arrays -/

/-- The shape of the query, key and value arrays and of the attention output. -/
abbrev QKV : Shape := ⟨3, ![96, 1024, 64]⟩
/-- The shape of the mask and of the softmax matrix. -/
abbrev Probs : Shape := ⟨3, ![96, 1024, 1024]⟩

/-- The score of query row i against key row j in batch b, each query entry scaled by 1/8 before the contraction. -/
def scoreScaledQuery (q k : QKV.Idx → EReal) (b : Fin 96) (i j : Fin 1024) : EReal :=
  ∑ d : Fin 64, (q (ix3 b i d) * Ideal.ofBits .f32 0x3E000000#32) * k (ix3 b j d)

/-- The same score with the contraction taken first and divided by 8. -/
def scoreDivided (q k : QKV.Idx → EReal) (b : Fin 96) (i j : Fin 1024) : EReal :=
  Ideal.div (∑ d : Fin 64, q (ix3 b i d) * k (ix3 b j d)) (Ideal.ofBits .f32 0x41000000#32)

/-- The softmax matrix of given scores under a mask. -/
def attnOf (sc : Fin 96 → Fin 1024 → Fin 1024 → EReal) (mask : Probs.Idx → BitVec 1) : Probs.Idx → EReal :=
  fun i => softmaxRow (maskedRow (sc (i 0) (i 1)) (fun j => mask (ix3 (i 0) (i 1) j))) (i 2)

/-- The attention output: each softmax row contracted against the value rows. -/
def outOf (sc : Fin 96 → Fin 1024 → Fin 1024 → EReal) (mask : Probs.Idx → BitVec 1) (v : QKV.Idx → EReal) : QKV.Idx → EReal :=
  fun i => ∑ j : Fin 1024, attnOf sc mask (ix3 (i 0) (i 1) j) * v (ix3 (i 0) j (i 2))

/-! ## Moving the temperature across the contraction -/

/-- The coercion of the reals into the extended reals commutes with finite sums. -/
theorem coe_finset_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For finite queries and keys, scaling each query entry by 1/8 before the contraction is dividing the contraction
    by 8: in the reals a constant factor distributes over the sum. -/
theorem score_scaling (q k : QKV.Idx → EReal) (hq : ∀ i, ∃ r : ℝ, q i = (r : EReal)) (hk : ∀ i, ∃ r : ℝ, k i = (r : EReal))
    (b : Fin 96) (i j : Fin 1024) : scoreScaledQuery q k b i j = scoreDivided q k b i j := by
  choose qr hqr using hq
  choose kr hkr using hk
  unfold scoreScaledQuery scoreDivided
  rw [lit_eighth, lit_eight, Ideal.div_coe (by norm_num : (8 : ℝ) ≠ 0)]
  have h1 : ∀ d : Fin 64, (q (ix3 b i d) * ((1 / 8 : ℝ) : EReal)) * k (ix3 b j d)
      = ((qr (ix3 b i d) * (1 / 8) * kr (ix3 b j d) : ℝ) : EReal) := fun d => by
    rw [hqr, hkr, ← EReal.coe_mul, ← EReal.coe_mul]
  have h2 : ∀ d : Fin 64, q (ix3 b i d) * k (ix3 b j d) = ((qr (ix3 b i d) * kr (ix3 b j d) : ℝ) : EReal) := fun d => by
    rw [hqr, hkr, ← EReal.coe_mul]
  rw [Finset.sum_congr rfl (fun d _ => h1 d), Finset.sum_congr rfl (fun d _ => h2 d), ← coe_finset_sum, ← coe_finset_sum,
    ← EReal.coe_mul, Finset.sum_mul]
  exact congrArg _ (Finset.sum_congr rfl fun d _ => by ring)

end Cert.Attention

end
-- ==== Proof.KernelBlock.lean ====
/-
  What the kernel body computes from its loaded blocks, read one element at a time (at the ideal values).

  At a grid point the body holds 256 query rows, all 1024 key rows and value rows of one batch entry, and the
  256 x 1024 tile of the (widened) mask. Element (r, j) of the softmax tile is the softmax of row r of the masked scores,
  where the score of row r against key j is the sum over d of (query entry times 1/8) times key entry; element (r, e) of
  the output tile is the sum over j of the softmax element (r, j) times value entry (j, e).
-/
import proofs.«428626_j71528385347805_3_alg».proof.Proof.Gen.KernelIdeal.Skeleton
import proofs.«428626_j71528385347805_3_alg».proof.Proof.Softmax
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Attention

/-! ## The two contractions read at an element -/

theorem qk_lhs_0 (i : S1x256x1024.Idx) (q : dot_S1x256x64_S1x1024x64_S1x256x1024_2_2_1_1_0_0.contr.Idx) :
    (dot_S1x256x64_S1x1024x64_S1x256x1024_2_2_1_1_0_0.lhsIdx i q 0).val = (i 0).val := by
  unfold DotDims.lhsIdx
  rw [dif_pos (show (0 : Fin S1x256x64.rank) ∈ dot_S1x256x64_S1x1024x64_S1x256x1024_2_2_1_1_0_0.lhsBatch by decide)]
  rfl
theorem qk_lhs_1 (i : S1x256x1024.Idx) (q : dot_S1x256x64_S1x1024x64_S1x256x1024_2_2_1_1_0_0.contr.Idx) :
    (dot_S1x256x64_S1x1024x64_S1x256x1024_2_2_1_1_0_0.lhsIdx i q 1).val = (i 1).val := by
  unfold DotDims.lhsIdx
  rw [dif_neg (show ¬(1 : Fin S1x256x64.rank) ∈ dot_S1x256x64_S1x1024x64_S1x256x1024_2_2_1_1_0_0.lhsBatch by decide), dif_pos (show (1 : Fin S1x256x64.rank) ∈ dot_S1x256x64_S1x1024x64_S1x256x1024_2_2_1_1_0_0.lhsNonContracting by decide)]
  rfl
theorem qk_lhs_2 (i : S1x256x1024.Idx) (q : dot_S1x256x64_S1x1024x64_S1x256x1024_2_2_1_1_0_0.contr.Idx) :
    (dot_S1x256x64_S1x1024x64_S1x256x1024_2_2_1_1_0_0.lhsIdx i q 2).val = (q ⟨0, by decide⟩).val :=
  dot_S1x256x64_S1x1024x64_S1x256x1024_2_2_1_1_0_0.lhsIdx_val_of_single rfl i q
theorem qk_rhs_0 (i : S1x256x1024.Idx) (q : dot_S1x256x64_S1x1024x64_S1x256x1024_2_2_1_1_0_0.contr.Idx) :
    (dot_S1x256x64_S1x1024x64_S1x256x1024_2_2_1_1_0_0.rhsIdx i q 0).val = (i 0).val := by
  unfold DotDims.rhsIdx
  rw [dif_pos (show (0 : Fin S1x1024x64.rank) ∈ dot_S1x256x64_S1x1024x64_S1x256x1024_2_2_1_1_0_0.rhsBatch by decide)]
  rfl
theorem qk_rhs_1 (i : S1x256x1024.Idx) (q : dot_S1x256x64_S1x1024x64_S1x256x1024_2_2_1_1_0_0.contr.Idx) :
    (dot_S1x256x64_S1x1024x64_S1x256x1024_2_2_1_1_0_0.rhsIdx i q 1).val = (i 2).val := by
  unfold DotDims.rhsIdx
  rw [dif_neg (show ¬(1 : Fin S1x1024x64.rank) ∈ dot_S1x256x64_S1x1024x64_S1x256x1024_2_2_1_1_0_0.rhsBatch by decide), dif_pos (show (1 : Fin S1x1024x64.rank) ∈ dot_S1x256x64_S1x1024x64_S1x256x1024_2_2_1_1_0_0.rhsNonContracting by decide)]
  rfl
theorem qk_rhs_2 (i : S1x256x1024.Idx) (q : dot_S1x256x64_S1x1024x64_S1x256x1024_2_2_1_1_0_0.contr.Idx) :
    (dot_S1x256x64_S1x1024x64_S1x256x1024_2_2_1_1_0_0.rhsIdx i q 2).val = (q ⟨0, by decide⟩).val :=
  dot_S1x256x64_S1x1024x64_S1x256x1024_2_2_1_1_0_0.rhsIdx_val_of_single rfl i q

/-- The score tile at (r, j): the query row r against the key row j, summed over the 64 features. -/
theorem scores_apply (a : FVec Ideal S1x256x64 .bf16) (b : FVec Ideal S1x1024x64 .bf16) (r : Fin 256) (j : Fin 1024) :
    matmul dot_S1x256x64_S1x1024x64_S1x256x1024_2_2_1_1_0_0 none a b (constant S1x256x1024 .f32 0x00000000#32) (ix3 (0 : Fin 1) r j)
      = ∑ d : Fin 64, a (ix3 (0 : Fin 1) r d) * b (ix3 (0 : Fin 1) j d) := by
  simp only [matmul]
  rw [Ideal.matmul_constant_zero_apply, ← Equiv.sum_comp (ValueIdx.contrEquiv1 dot_S1x256x64_S1x1024x64_S1x256x1024_2_2_1_1_0_0 64 rfl rfl).symm]
  refine Finset.sum_congr rfl fun k _ => ?_
  have hk := ValueIdx.contrEquiv1_symm_val dot_S1x256x64_S1x1024x64_S1x256x1024_2_2_1_1_0_0 64 rfl rfl k
  have el : dot_S1x256x64_S1x1024x64_S1x256x1024_2_2_1_1_0_0.lhsIdx (ix3 (0 : Fin 1) r j) ((ValueIdx.contrEquiv1 dot_S1x256x64_S1x1024x64_S1x256x1024_2_2_1_1_0_0 64 rfl rfl).symm k) = ix3 (0 : Fin 1) r k := funext fun a => Fin.ext (by
    match a with
    | ⟨0, _⟩ => exact qk_lhs_0 _ _
    | ⟨1, _⟩ => exact qk_lhs_1 _ _
    | ⟨2, _⟩ => exact (qk_lhs_2 _ _).trans hk)
  have er : dot_S1x256x64_S1x1024x64_S1x256x1024_2_2_1_1_0_0.rhsIdx (ix3 (0 : Fin 1) r j) ((ValueIdx.contrEquiv1 dot_S1x256x64_S1x1024x64_S1x256x1024_2_2_1_1_0_0 64 rfl rfl).symm k) = ix3 (0 : Fin 1) j k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

theorem pv_lhs_0 (i : S1x256x64.Idx) (q : dot_S1x256x1024_S1x1024x64_S1x256x64_2_1_1_2_0_0.contr.Idx) :
    (dot_S1x256x1024_S1x1024x64_S1x256x64_2_1_1_2_0_0.lhsIdx i q 0).val = (i 0).val := by
  unfold DotDims.lhsIdx
  rw [dif_pos (show (0 : Fin S1x256x1024.rank) ∈ dot_S1x256x1024_S1x1024x64_S1x256x64_2_1_1_2_0_0.lhsBatch by decide)]
  rfl
theorem pv_lhs_1 (i : S1x256x64.Idx) (q : dot_S1x256x1024_S1x1024x64_S1x256x64_2_1_1_2_0_0.contr.Idx) :
    (dot_S1x256x1024_S1x1024x64_S1x256x64_2_1_1_2_0_0.lhsIdx i q 1).val = (i 1).val := by
  unfold DotDims.lhsIdx
  rw [dif_neg (show ¬(1 : Fin S1x256x1024.rank) ∈ dot_S1x256x1024_S1x1024x64_S1x256x64_2_1_1_2_0_0.lhsBatch by decide), dif_pos (show (1 : Fin S1x256x1024.rank) ∈ dot_S1x256x1024_S1x1024x64_S1x256x64_2_1_1_2_0_0.lhsNonContracting by decide)]
  rfl
theorem pv_lhs_2 (i : S1x256x64.Idx) (q : dot_S1x256x1024_S1x1024x64_S1x256x64_2_1_1_2_0_0.contr.Idx) :
    (dot_S1x256x1024_S1x1024x64_S1x256x64_2_1_1_2_0_0.lhsIdx i q 2).val = (q ⟨0, by decide⟩).val :=
  dot_S1x256x1024_S1x1024x64_S1x256x64_2_1_1_2_0_0.lhsIdx_val_of_single rfl i q
theorem pv_rhs_0 (i : S1x256x64.Idx) (q : dot_S1x256x1024_S1x1024x64_S1x256x64_2_1_1_2_0_0.contr.Idx) :
    (dot_S1x256x1024_S1x1024x64_S1x256x64_2_1_1_2_0_0.rhsIdx i q 0).val = (i 0).val := by
  unfold DotDims.rhsIdx
  rw [dif_pos (show (0 : Fin S1x1024x64.rank) ∈ dot_S1x256x1024_S1x1024x64_S1x256x64_2_1_1_2_0_0.rhsBatch by decide)]
  rfl
theorem pv_rhs_1 (i : S1x256x64.Idx) (q : dot_S1x256x1024_S1x1024x64_S1x256x64_2_1_1_2_0_0.contr.Idx) :
    (dot_S1x256x1024_S1x1024x64_S1x256x64_2_1_1_2_0_0.rhsIdx i q 1).val = (q ⟨0, by decide⟩).val :=
  dot_S1x256x1024_S1x1024x64_S1x256x64_2_1_1_2_0_0.rhsIdx_val_of_single rfl i q
theorem pv_rhs_2 (i : S1x256x64.Idx) (q : dot_S1x256x1024_S1x1024x64_S1x256x64_2_1_1_2_0_0.contr.Idx) :
    (dot_S1x256x1024_S1x1024x64_S1x256x64_2_1_1_2_0_0.rhsIdx i q 2).val = (i 2).val := by
  unfold DotDims.rhsIdx
  rw [dif_neg (show ¬(2 : Fin S1x1024x64.rank) ∈ dot_S1x256x1024_S1x1024x64_S1x256x64_2_1_1_2_0_0.rhsBatch by decide), dif_pos (show (2 : Fin S1x1024x64.rank) ∈ dot_S1x256x1024_S1x1024x64_S1x256x64_2_1_1_2_0_0.rhsNonContracting by decide)]
  rfl

/-- The output tile at (r, e): row r of the probabilities against column e of the values, summed over the 1024 keys. -/
theorem weighted_apply (p : FVec Ideal S1x256x1024 .bf16) (v : FVec Ideal S1x1024x64 .bf16) (r : Fin 256) (e : Fin 64) :
    matmul dot_S1x256x1024_S1x1024x64_S1x256x64_2_1_1_2_0_0 none p v (constant S1x256x64 .f32 0x00000000#32) (ix3 (0 : Fin 1) r e)
      = ∑ j : Fin 1024, p (ix3 (0 : Fin 1) r j) * v (ix3 (0 : Fin 1) j e) := by
  simp only [matmul]
  rw [Ideal.matmul_constant_zero_apply, ← Equiv.sum_comp (ValueIdx.contrEquiv1 dot_S1x256x1024_S1x1024x64_S1x256x64_2_1_1_2_0_0 1024 rfl rfl).symm]
  refine Finset.sum_congr rfl fun k _ => ?_
  have hk := ValueIdx.contrEquiv1_symm_val dot_S1x256x1024_S1x1024x64_S1x256x64_2_1_1_2_0_0 1024 rfl rfl k
  have el : dot_S1x256x1024_S1x1024x64_S1x256x64_2_1_1_2_0_0.lhsIdx (ix3 (0 : Fin 1) r e) ((ValueIdx.contrEquiv1 dot_S1x256x1024_S1x1024x64_S1x256x64_2_1_1_2_0_0 1024 rfl rfl).symm k) = ix3 (0 : Fin 1) r k := funext fun a => Fin.ext (by
    match a with
    | ⟨0, _⟩ => exact pv_lhs_0 _ _
    | ⟨1, _⟩ => exact pv_lhs_1 _ _
    | ⟨2, _⟩ => exact (pv_lhs_2 _ _).trans hk)
  have er : dot_S1x256x1024_S1x1024x64_S1x256x64_2_1_1_2_0_0.rhsIdx (ix3 (0 : Fin 1) r e) ((ValueIdx.contrEquiv1 dot_S1x256x1024_S1x1024x64_S1x256x64_2_1_1_2_0_0 1024 rfl rfl).symm k) = ix3 (0 : Fin 1) k e := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## A per-row quantity spread back over the tile -/

/-- A value per row, recast with a trailing unit axis and spread along the 1024 columns, reads the row's value. -/
theorem spread_apply {α : Type} (x : S1x256.Idx → α) (r : Fin 256) (j : Fin 1024) :
    broadcastTo S1x256x1024 (shapeCast S1x256x1 x shapeCasts_S1x256_S1x256x1) broadcasts_S1x256x1_S1x256x1024 (ix3 (0 : Fin 1) r j)
      = x (ix2 (0 : Fin 1) r) := by
  rw [broadcastTo_apply _ broadcasts_S1x256x1_S1x256x1024 (ix3 (0 : Fin 1) r j) (ix3 (0 : Fin 1) r (0 : Fin 1)) (fun a => by
    match a with
    | ⟨0, _⟩ => show (0 : Nat) = if (1 : Nat) = 1 then 0 else _; rw [if_pos rfl]
    | ⟨1, _⟩ => show r.val = if (256 : Nat) = 1 then 0 else r.val; rw [if_neg (by decide)]
    | ⟨2, _⟩ => show (0 : Nat) = if (1 : Nat) = 1 then 0 else _; rw [if_pos rfl])]
  refine shapeCast_apply x shapeCasts_S1x256_S1x256x1 (ix3 (0 : Fin 1) r (0 : Fin 1)) (ix2 (0 : Fin 1) r) ?_
  rw [Shape.rowMajor_val_two, Shape.rowMajor_val_three]
  show (0 : Nat) * 256 + r.val = ((0 : Nat) * 256 + r.val) * 1 + 0
  omega

/-! ## The softmax of a tile of masked scores -/

/-- The row maxima of a tile. -/
abbrev tileRowMax (S : FVec Ideal S1x256x1024 .f32) : FVec Ideal S1x256 .f32 :=
  multiReduction .maximumf [2] S1x256 S 0xFF800000#32 reduces_S1x256x1024_S1x256 (.inl rfl) rfl

/-- The shifted exponentials of a tile. -/
abbrev tileExp (S : FVec Ideal S1x256x1024 .f32) : FVec Ideal S1x256x1024 .f32 :=
  exp (subf S (broadcastTo S1x256x1024 (shapeCast S1x256x1 (tileRowMax S) shapeCasts_S1x256_S1x256x1) broadcasts_S1x256x1_S1x256x1024))

/-- The row sums of a tile. -/
abbrev tileRowSum (E : FVec Ideal S1x256x1024 .f32) : FVec Ideal S1x256 .f32 :=
  multiReduction .add [2] S1x256 E 0x00000000#32 reduces_S1x256x1024_S1x256 (.inl rfl) rfl

/-- The row-wise softmax of a tile, as the body spells it. -/
abbrev tileSoftmax (S : FVec Ideal S1x256x1024 .f32) : FVec Ideal S1x256x1024 .f32 :=
  divf (tileExp S) (broadcastTo S1x256x1024 (shapeCast S1x256x1 (tileRowSum (tileExp S)) shapeCasts_S1x256_S1x256x1) broadcasts_S1x256x1_S1x256x1024)

/-- The maximum of row r of a tile is the maximum of that row's 1024 entries. -/
theorem tileRowMax_apply (S : FVec Ideal S1x256x1024 .f32) (r : Fin 256) :
    tileRowMax S (ix2 (0 : Fin 1) r) = rowMax (fun j => S (ix3 (0 : Fin 1) r j)) := by
  unfold rowMax
  refine (Ideal.multiReduction_maximumf_single S 0xFF800000#32 reduces_S1x256x1024_S1x256 (.inl rfl) rfl (ix2 (0 : Fin 1) r)).trans ?_
  rw [Ideal.ofBits_def, lit_negInf]
  refine congrArg (Finset.fold max ⊥ · Finset.univ) (funext fun k => ?_)
  exact congrArg S (funext fun a => Fin.ext (by match a with | ⟨0, _⟩ => rfl | ⟨1, _⟩ => rfl | ⟨2, _⟩ => rfl))

/-- The sum of row r of a tile is the sum of that row's 1024 entries. -/
theorem tileRowSum_apply (E : FVec Ideal S1x256x1024 .f32) (r : Fin 256) :
    tileRowSum E (ix2 (0 : Fin 1) r) = ∑ j : Fin 1024, E (ix3 (0 : Fin 1) r j) := by
  refine (Ideal.multiReduction_add_single E 0x00000000#32 reduces_S1x256x1024_S1x256 (.inl rfl) rfl (ix2 (0 : Fin 1) r)).trans ?_
  refine Finset.sum_congr rfl fun k _ => ?_
  exact congrArg E (funext fun a => Fin.ext (by match a with | ⟨0, _⟩ => rfl | ⟨1, _⟩ => rfl | ⟨2, _⟩ => rfl))

/-- The shifted exponential at (r, j) is the row's. -/
theorem tileExp_apply (S : FVec Ideal S1x256x1024 .f32) (r : Fin 256) (j : Fin 1024) :
    tileExp S (ix3 (0 : Fin 1) r j) = rowExp (fun j' => S (ix3 (0 : Fin 1) r j')) j := by
  show Ideal.exp (S (ix3 (0 : Fin 1) r j) - broadcastTo S1x256x1024 (shapeCast S1x256x1 (tileRowMax S) shapeCasts_S1x256_S1x256x1) broadcasts_S1x256x1_S1x256x1024 (ix3 (0 : Fin 1) r j)) = _
  rw [spread_apply, tileRowMax_apply]
  rfl

/-- The tile's softmax at (r, j) is the softmax of row r at j. -/
theorem tileSoftmax_apply (S : FVec Ideal S1x256x1024 .f32) (r : Fin 256) (j : Fin 1024) :
    tileSoftmax S (ix3 (0 : Fin 1) r j) = softmaxRow (fun j' => S (ix3 (0 : Fin 1) r j')) j := by
  show Ideal.div (tileExp S (ix3 (0 : Fin 1) r j)) (broadcastTo S1x256x1024 (shapeCast S1x256x1 (tileRowSum (tileExp S)) shapeCasts_S1x256_S1x256x1) broadcasts_S1x256x1_S1x256x1024 (ix3 (0 : Fin 1) r j)) = _
  rw [spread_apply, tileRowSum_apply, tileExp_apply]
  unfold softmaxRow
  exact congrArg _ (Finset.sum_congr rfl fun j' _ => tileExp_apply S r j')

/-! ## The masked scores of a tile -/

/-- The masked scores as the body spells them: each query entry times 1/8, contracted with the keys, the filler where
    the widened mask word is not zero. -/
abbrev tileMasked (x0 : Vec Ideal S1x256x64 .f32) (x4 : Vec Ideal S1x1024x64 .f32) (x9 : Vec Ideal S1x256x1024 .i32) : FVec Ideal S1x256x1024 .f32 :=
  select (cmpi .ne x9 (constantI S1x256x1024 32 0#32)) (broadcast S1x256x1024 (Scalar.ofBits (F := Ideal) .f32 0xD01502F9#32))
    (matmul dot_S1x256x64_S1x1024x64_S1x256x1024_2_2_1_1_0_0 none
      (truncf .bf16 (mulf x0 (broadcast S1x256x64 (Scalar.ofBits (F := Ideal) .f32 0x3E000000#32))) bitsLt_bf16_f32)
      (truncf .bf16 x4 bitsLt_bf16_f32) (constant S1x256x1024 .f32 0x00000000#32))

/-- Row r of the masked scores. -/
theorem tileMasked_apply (x0 : Vec Ideal S1x256x64 .f32) (x4 : Vec Ideal S1x1024x64 .f32) (x9 : Vec Ideal S1x256x1024 .i32) (r : Fin 256) (j : Fin 1024) :
    tileMasked x0 x4 x9 (ix3 (0 : Fin 1) r j)
      = maskedRow (fun j' => ∑ d : Fin 64, (x0 (ix3 (0 : Fin 1) r d) * Ideal.ofBits .f32 0x3E000000#32) * x4 (ix3 (0 : Fin 1) j' d))
          (fun j' => IntOp.cmpi .ne (x9 (ix3 (0 : Fin 1) r j')) 0#32) j := by
  show Scalar.select (IntOp.cmpi .ne (x9 (ix3 (0 : Fin 1) r j)) 0#32) (Ideal.ofBits .f32 0xD01502F9#32) (matmul dot_S1x256x64_S1x1024x64_S1x256x1024_2_2_1_1_0_0 none _ _ (constant S1x256x1024 .f32 0x00000000#32) (ix3 (0 : Fin 1) r j)) = _
  rw [scores_apply]
  rfl

/-! ## The two payloads -/

/-- The softmax payload is the tile softmax of the masked scores. -/
theorem pay1_eq (x0 : Vec Ideal S1x256x64 .f32) (x4 : Vec Ideal S1x1024x64 .f32) (x9 : Vec Ideal S1x256x1024 .i32) :
    k0_pay1 x0 x4 x9 = tileSoftmax (tileMasked x0 x4 x9) := rfl

/-- The softmax payload at (r, j). -/
theorem pay1_apply (x0 : Vec Ideal S1x256x64 .f32) (x4 : Vec Ideal S1x1024x64 .f32) (x9 : Vec Ideal S1x256x1024 .i32) (r : Fin 256) (j : Fin 1024) :
    k0_pay1 x0 x4 x9 (ix3 (0 : Fin 1) r j)
      = softmaxRow (maskedRow (fun j' => ∑ d : Fin 64, (x0 (ix3 (0 : Fin 1) r d) * Ideal.ofBits .f32 0x3E000000#32) * x4 (ix3 (0 : Fin 1) j' d))
          (fun j' => IntOp.cmpi .ne (x9 (ix3 (0 : Fin 1) r j')) 0#32)) j := by
  rw [pay1_eq, tileSoftmax_apply]
  exact congrArg (softmaxRow · j) (funext fun j' => tileMasked_apply x0 x4 x9 r j')

/-- The output payload at (r, e): the softmax row r against value column e. -/
theorem pay2_apply (x0 : Vec Ideal S1x256x64 .f32) (x4 x6 : Vec Ideal S1x1024x64 .f32) (x9 : Vec Ideal S1x256x1024 .i32) (r : Fin 256) (e : Fin 64) :
    k0_pay2 x0 x4 x6 x9 (ix3 (0 : Fin 1) r e)
      = ∑ j : Fin 1024, k0_pay1 x0 x4 x9 (ix3 (0 : Fin 1) r j) * x6 (ix3 (0 : Fin 1) j e) := by
  show matmul dot_S1x256x1024_S1x1024x64_S1x256x64_2_1_1_2_0_0 none (truncf .bf16 (k0_pay1 x0 x4 x9) bitsLt_bf16_f32) (truncf .bf16 x6 bitsLt_bf16_f32) (constant S1x256x64 .f32 0x00000000#32) (ix3 (0 : Fin 1) r e) = _
  rw [weighted_apply]
  rfl

/-! ## The payloads against the whole arrays

A tile's blocks are pieces of the whole arrays: the query rows of the tile are rows "row r" of batch entry b, the key
and value blocks are all rows of batch entry b, and the widened mask word is nonzero exactly where the mask bit is set. -/

/-- A one-bit word widened to 32 bits differs from zero exactly when the bit is set. -/
theorem widened_bit (b : BitVec 1) : IntOp.cmpi .ne (b.setWidth 32) 0#32 = b := by
  rcases BitVec.eq_zero_or_eq_one b with rfl | rfl <;> rfl

/-- The softmax payload at (r, j) is the softmax matrix of the whole arrays at (b, row r, j). -/
theorem pay1_global (x0 : Vec Ideal S1x256x64 .f32) (x4 : Vec Ideal S1x1024x64 .f32) (x9 : Vec Ideal S1x256x1024 .i32)
    (q k : QKV.Idx → EReal) (mask : Probs.Idx → BitVec 1) (b : Fin 96) (row : Fin 256 → Fin 1024)
    (hq : ∀ (r : Fin 256) (d : Fin 64), x0 (ix3 (0 : Fin 1) r d) = q (ix3 b (row r) d))
    (hk : ∀ (j : Fin 1024) (d : Fin 64), x4 (ix3 (0 : Fin 1) j d) = k (ix3 b j d))
    (hm : ∀ (r : Fin 256) (j : Fin 1024), IntOp.cmpi .ne (x9 (ix3 (0 : Fin 1) r j)) 0#32 = mask (ix3 b (row r) j))
    (r : Fin 256) (j : Fin 1024) :
    k0_pay1 x0 x4 x9 (ix3 (0 : Fin 1) r j) = attnOf (scoreScaledQuery q k) mask (ix3 b (row r) j) := by
  rw [pay1_apply]
  show _ = softmaxRow (maskedRow (scoreScaledQuery q k b (row r)) (fun j' => mask (ix3 b (row r) j'))) j
  refine congrArg (softmaxRow · j) (funext fun j' => ?_)
  unfold maskedRow scoreScaledQuery
  dsimp only
  rw [hm r j']
  refine congrArg (Scalar.select _ _) (Finset.sum_congr rfl fun d _ => ?_)
  rw [hq r d, hk j' d]

/-- The output payload at (r, e) is the attention output of the whole arrays at (b, row r, e). -/
theorem pay2_global (x0 : Vec Ideal S1x256x64 .f32) (x4 x6 : Vec Ideal S1x1024x64 .f32) (x9 : Vec Ideal S1x256x1024 .i32)
    (q k v : QKV.Idx → EReal) (mask : Probs.Idx → BitVec 1) (b : Fin 96) (row : Fin 256 → Fin 1024)
    (hq : ∀ (r : Fin 256) (d : Fin 64), x0 (ix3 (0 : Fin 1) r d) = q (ix3 b (row r) d))
    (hk : ∀ (j : Fin 1024) (d : Fin 64), x4 (ix3 (0 : Fin 1) j d) = k (ix3 b j d))
    (hv : ∀ (j : Fin 1024) (e : Fin 64), x6 (ix3 (0 : Fin 1) j e) = v (ix3 b j e))
    (hm : ∀ (r : Fin 256) (j : Fin 1024), IntOp.cmpi .ne (x9 (ix3 (0 : Fin 1) r j)) 0#32 = mask (ix3 b (row r) j))
    (r : Fin 256) (e : Fin 64) :
    k0_pay2 x0 x4 x6 x9 (ix3 (0 : Fin 1) r e) = outOf (scoreScaledQuery q k) mask v (ix3 b (row r) e) := by
  rw [pay2_apply]
  show _ = ∑ j : Fin 1024, attnOf (scoreScaledQuery q k) mask (ix3 b (row r) j) * v (ix3 b j e)
  exact Finset.sum_congr rfl fun j _ => by rw [pay1_global x0 x4 x9 q k mask b row hq hk hm r j, hv j e]

end Cert.KernelIdeal.Block

end
-- ==== Proof.KernelWhole.lean ====
/-
  From the tiles to the whole arrays. Grid point t handles batch entry t / 4 and the query rows
  (t mod 4) * 256 ... (t mod 4) * 256 + 255 of it. Its query, mask, softmax and output tiles are those rows; its key and
  value blocks are all 1024 rows of the batch entry. Each tile the point writes back is therefore the corresponding
  block of ONE function of the whole argument arrays, the 384 tiles cover the two result arrays, and so the two
  result arrays end holding that function.
-/
import proofs.«428626_j71528385347805_3_alg».proof.Proof.Gen.KernelIdeal.Value
import proofs.«428626_j71528385347805_3_alg».proof.Proof.KernelBlock
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block Idealize.ShloMosaic.ValueIdx
  Idealize.ShloMosaic.StableHlo Cert.Attention

variable (m : (ℓ : Loc nD τ sig) → Buf (Elt Ideal) ℓ) (ρ : Dev nD → PrngReg)

theorem hz : (![0, 0, 0] : Fin 3 → Nat) = fun _ => 0 := funext fun a => by fin_cases a <;> rfl

/-! ## The argument arrays and the two target functions -/

/-- The queries, keys, values and mask as launched. -/
abbrev qArr (c : Dev nD) : QKV.Idx → EReal := m ((c : Thread nD τ).loc main_arg0)
abbrev kArr (c : Dev nD) : QKV.Idx → EReal := m ((c : Thread nD τ).loc main_arg1)
abbrev vArr (c : Dev nD) : QKV.Idx → EReal := m ((c : Thread nD τ).loc main_arg2)
abbrev maskArr (c : Dev nD) : Probs.Idx → BitVec 1 := m ((c : Thread nD τ).loc main_arg4)

/-- The softmax matrix of the launched arrays, each query entry scaled by 1/8 before the contraction. -/
abbrev attnK (c : Dev nD) : Probs.Idx → EReal := attnOf (scoreScaledQuery (qArr m c) (kArr m c)) (maskArr m c)
/-- The attention output of the launched arrays. -/
abbrev outK (c : Dev nD) : QKV.Idx → EReal := outOf (scoreScaledQuery (qArr m c) (kArr m c)) (maskArr m c) (vArr m c)

/-! ## Which block each window holds at a point -/

/-- The printed index maps over the grid: the tiled windows sit at block (t / 4, t mod 4, 0), the key and value
    windows at block (t / 4, 0, 0). -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

theorem point_lt (t : Fin cfg0.N) : t.val < 384 := lt_of_lt_of_eq t.isLt N_0

/-- The batch entry of a point. -/
def bOf (t : Fin cfg0.N) : Fin 96 := ⟨t.val / 4, by have := point_lt t; omega⟩
/-- The query row of the array that local row r of a point's tile is. -/
def rowOf (t : Fin cfg0.N) (r : Fin 256) : Fin 1024 := ⟨t.val % 4 * 256 + r.val, by have := r.isLt; omega⟩

/-- The query tile is rows rowOf t of batch entry bOf t. -/
theorem qblk_apply (c : Dev nD) (t : Fin cfg0.N) (r : Fin 256) (d : Fin 64) :
    (iblk m c 0 t : Vec Ideal S1x256x64 .f32) (ix3 (0 : Fin 1) r d) = qArr m c (ix3 (bOf t) (rowOf t r) d) := by
  obtain ⟨⟨e0, e1, e2⟩, -⟩ := idx_facts t
  unfold iblk
  rw [View.read_apply]
  show V m c main_arg0 (((cfg0.win 0).blk t).view.emb (ix3 (0 : Fin 1) r d)) = _
  refine (congrFun (V_main_arg0 m c) _).trans ?_
  refine congrArg (qArr m c) (funext fun a => Fin.ext ?_)
  match a with
  | ⟨0, _⟩ => show win0_0.index t (0 : Fin 3) * 1 + 1 * 0 = t.val / 4; omega
  | ⟨1, _⟩ => show win0_0.index t (1 : Fin 3) * 256 + 1 * r.val = t.val % 4 * 256 + r.val; omega
  | ⟨2, _⟩ => show win0_0.index t (2 : Fin 3) * 64 + 1 * d.val = d.val; omega

/-- The key block is all rows of batch entry bOf t. -/
theorem kblk_apply (c : Dev nD) (t : Fin cfg0.N) (j : Fin 1024) (d : Fin 64) :
    (iblk m c 1 t : Vec Ideal S1x1024x64 .f32) (ix3 (0 : Fin 1) j d) = kArr m c (ix3 (bOf t) j d) := by
  obtain ⟨-, ⟨e0, e1, e2⟩, -⟩ := idx_facts t
  unfold iblk
  rw [View.read_apply]
  show V m c main_arg1 (((cfg0.win 1).blk t).view.emb (ix3 (0 : Fin 1) j d)) = _
  refine (congrFun (V_main_arg1 m c) _).trans ?_
  refine congrArg (kArr m c) (funext fun a => Fin.ext ?_)
  match a with
  | ⟨0, _⟩ => show win0_1.index t (0 : Fin 3) * 1 + 1 * 0 = t.val / 4; omega
  | ⟨1, _⟩ => show win0_1.index t (1 : Fin 3) * 1024 + 1 * j.val = j.val; omega
  | ⟨2, _⟩ => show win0_1.index t (2 : Fin 3) * 64 + 1 * d.val = d.val; omega

/-- The value block is all rows of batch entry bOf t. -/
theorem vblk_apply (c : Dev nD) (t : Fin cfg0.N) (j : Fin 1024) (e : Fin 64) :
    (iblk m c 2 t : Vec Ideal S1x1024x64 .f32) (ix3 (0 : Fin 1) j e) = vArr m c (ix3 (bOf t) j e) := by
  obtain ⟨-, -, ⟨e0, e1, e2⟩, -⟩ := idx_facts t
  unfold iblk
  rw [View.read_apply]
  show V m c main_arg2 (((cfg0.win 2).blk t).view.emb (ix3 (0 : Fin 1) j e)) = _
  refine (congrFun (V_main_arg2 m c) _).trans ?_
  refine congrArg (vArr m c) (funext fun a => Fin.ext ?_)
  match a with
  | ⟨0, _⟩ => show win0_2.index t (0 : Fin 3) * 1 + 1 * 0 = t.val / 4; omega
  | ⟨1, _⟩ => show win0_2.index t (1 : Fin 3) * 1024 + 1 * j.val = j.val; omega
  | ⟨2, _⟩ => show win0_2.index t (2 : Fin 3) * 64 + 1 * e.val = e.val; omega

/-- The fourth operand of the call is the mask widened to 32-bit words. -/
theorem V_mask (c : Dev nD) : (V m c main_v0 : S96x1024x1024.Idx → BitVec 32) = extui 32 (maskArr m c) natLt_1_32 := by
  dsimp only [Gen.V, Gen.hostOps0]; after_results

/-- A word of the mask tile differs from zero exactly where the mask bit of the array is set. -/
theorem mblk_apply (c : Dev nD) (t : Fin cfg0.N) (r : Fin 256) (j : Fin 1024) :
    IntOp.cmpi .ne ((iblk m c 3 t : Vec Ideal S1x256x1024 .i32) (ix3 (0 : Fin 1) r j)) 0#32 = maskArr m c (ix3 (bOf t) (rowOf t r) j) := by
  obtain ⟨-, -, -, ⟨e0, e1, e2⟩, -⟩ := idx_facts t
  have hb : (iblk m c 3 t : Vec Ideal S1x256x1024 .i32) (ix3 (0 : Fin 1) r j) = (maskArr m c (ix3 (bOf t) (rowOf t r) j)).setWidth 32 := by
    unfold iblk
    rw [View.read_apply]
    show V m c main_v0 (((cfg0.win 3).blk t).view.emb (ix3 (0 : Fin 1) r j)) = _
    refine (congrFun (V_mask m c) _).trans ?_
    refine congrArg (fun i => (maskArr m c i).setWidth 32) (funext fun a => Fin.ext ?_)
    match a with
    | ⟨0, _⟩ => show win0_3.index t (0 : Fin 3) * 1 + 1 * 0 = t.val / 4; omega
    | ⟨1, _⟩ => show win0_3.index t (1 : Fin 3) * 256 + 1 * r.val = t.val % 4 * 256 + r.val; omega
    | ⟨2, _⟩ => show win0_3.index t (2 : Fin 3) * 1024 + 1 * j.val = j.val; omega
  rw [hb, widened_bit]

/-! ## What a point writes back -/

/-- The softmax tile of point t, element by element, is the softmax matrix of the launched arrays on the tile's block. -/
theorem attn_point (c : Dev nD) (t : Fin cfg0.N) (y : S1x256x1024.Idx) :
    k0_pay1 (iblk m c 0 t) (iblk m c 1 t) (iblk m c 3 t) y = attnK m c (((cfg0.win 5).blk t).view.emb y) := by
  obtain ⟨z, r, j, rfl⟩ : ∃ (z : Fin 1) (r : Fin 256) (j : Fin 1024), y = ix3 z r j := ⟨y 0, y 1, y 2, eq_ix3 y⟩
  obtain rfl : z = 0 := Subsingleton.elim _ _
  refine (pay1_global (iblk m c 0 t) (iblk m c 1 t) (iblk m c 3 t) (qArr m c) (kArr m c) (maskArr m c) (bOf t) (rowOf t)
    (qblk_apply m c t) (kblk_apply m c t) (mblk_apply m c t) r j).trans ?_
  obtain ⟨-, -, -, -, -, ⟨e0, e1, e2⟩⟩ := idx_facts t
  refine congrArg (attnK m c) (funext fun a => Fin.ext ?_)
  match a with
  | ⟨0, _⟩ => show t.val / 4 = win0_5.index t (0 : Fin 3) * 1 + 1 * 0; omega
  | ⟨1, _⟩ => show t.val % 4 * 256 + r.val = win0_5.index t (1 : Fin 3) * 256 + 1 * r.val; omega
  | ⟨2, _⟩ => show j.val = win0_5.index t (2 : Fin 3) * 1024 + 1 * j.val; omega

/-- The output tile of point t, element by element, is the attention output of the launched arrays on the tile's block. -/
theorem out_point (c : Dev nD) (t : Fin cfg0.N) (y : S1x256x64.Idx) :
    k0_pay2 (iblk m c 0 t) (iblk m c 1 t) (iblk m c 2 t) (iblk m c 3 t) y = outK m c (((cfg0.win 4).blk t).view.emb y) := by
  obtain ⟨z, r, e, rfl⟩ : ∃ (z : Fin 1) (r : Fin 256) (e : Fin 64), y = ix3 z r e := ⟨y 0, y 1, y 2, eq_ix3 y⟩
  obtain rfl : z = 0 := Subsingleton.elim _ _
  refine (pay2_global (iblk m c 0 t) (iblk m c 1 t) (iblk m c 2 t) (iblk m c 3 t) (qArr m c) (kArr m c) (vArr m c) (maskArr m c) (bOf t) (rowOf t)
    (qblk_apply m c t) (kblk_apply m c t) (vblk_apply m c t) (mblk_apply m c t) r e).trans ?_
  obtain ⟨-, -, -, -, ⟨e0, e1, e2⟩, -⟩ := idx_facts t
  refine congrArg (outK m c) (funext fun a => Fin.ext ?_)
  match a with
  | ⟨0, _⟩ => show t.val / 4 = win0_4.index t (0 : Fin 3) * 1 + 1 * 0; omega
  | ⟨1, _⟩ => show t.val % 4 * 256 + r.val = win0_4.index t (1 : Fin 3) * 256 + 1 * r.val; omega
  | ⟨2, _⟩ => show e.val = win0_4.index t (2 : Fin 3) * 64 + 1 * e.val; omega

/-- What point t writes back to the softmax array is block t of the softmax matrix of the launched arrays. -/
theorem flushed_attn (c : Dev nD) (t : Fin cfg0.N) :
    (dats m 0 c).flushed 5 t = ((cfg0.win 5).blk t).view.read (Elt Ideal) (attnK m c) := by
  rw [Value.flushed5]
  unfold out0_5
  rw [View.canon_unit_zero hz]
  simp only [View.ld_unit_zero (S := S1x256x64) hz, View.ld_unit_zero (S := S1x1024x64) hz, View.ld_unit_zero (S := S1x256x1024) hz]
  funext y
  exact attn_point m c t y

/-- What point t writes back to the output array is block t of the attention output of the launched arrays. -/
theorem flushed_out (c : Dev nD) (t : Fin cfg0.N) :
    (dats m 0 c).flushed 4 t = ((cfg0.win 4).blk t).view.read (Elt Ideal) (outK m c) := by
  rw [Value.flushed4]
  unfold out0_4
  rw [View.canon_unit_zero hz]
  simp only [View.ld_unit_zero (S := S1x256x64) hz, View.ld_unit_zero (S := S1x1024x64) hz, View.ld_unit_zero (S := S1x256x1024) hz]
  funext y
  exact out_point m c t y

/-! ## The tiles cover the arrays -/

theorem mem_blk_attn (t : Fin cfg0.N) (i : S96x1024x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v1_1).slice (win0_5.rect t)).set ↔ _
  rw [View.set_slice_whole, Rect.mem_set_unit]
  exact Iff.rfl

theorem mem_blk_out (t : Fin cfg0.N) (i : S96x1024x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v1_0).slice (win0_4.rect t)).set ↔ _
  rw [View.set_slice_whole, Rect.mem_set_unit]
  exact Iff.rfl

/-- Entry (b, i, j) of the softmax array lies in the tile of point 4 b + i / 256. -/
theorem cover_attn (i : S96x1024x1024.Idx) :
    ∃ t : Fin cfg0.N, (cfg0.win 5).flush t = true ∧ i ∈ ((cfg0.win 5).blk t).view.set := by
  have hi0 : (i 0).val < 96 := (i 0).isLt
  have hi1 : (i 1).val < 1024 := (i 1).isLt
  have hi2 : (i 2).val < 1024 := (i 2).isLt
  obtain ⟨t, ht⟩ : ∃ t : Fin cfg0.N, t.val = (i 0).val * 4 + (i 1).val / 256 :=
    ⟨⟨(i 0).val * 4 + (i 1).val / 256, by rw [show cfg0.N = 384 from N_0]; omega⟩, rfl⟩
  obtain ⟨-, -, -, -, -, ⟨e0, e1, e2⟩⟩ := idx_facts t
  refine ⟨t, flush0_5 t, ?_⟩
  rw [mem_blk_attn]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- Entry (b, i, e) of the output array lies in the tile of point 4 b + i / 256. -/
theorem cover_out (i : S96x1024x64.Idx) :
    ∃ t : Fin cfg0.N, (cfg0.win 4).flush t = true ∧ i ∈ ((cfg0.win 4).blk t).view.set := by
  have hi0 : (i 0).val < 96 := (i 0).isLt
  have hi1 : (i 1).val < 1024 := (i 1).isLt
  have hi2 : (i 2).val < 64 := (i 2).isLt
  obtain ⟨t, ht⟩ : ∃ t : Fin cfg0.N, t.val = (i 0).val * 4 + (i 1).val / 256 :=
    ⟨⟨(i 0).val * 4 + (i 1).val / 256, by rw [show cfg0.N = 384 from N_0]; omega⟩, rfl⟩
  obtain ⟨-, -, -, -, ⟨e0, e1, e2⟩, -⟩ := idx_facts t
  refine ⟨t, flush0_4 t, ?_⟩
  rw [mem_blk_out]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-! ## The arrays after the run -/

/-- The softmax array ends holding the softmax matrix of the launched arrays. -/
theorem final_attn (c : Dev nD) : (dats m 0 c).arrAt 5 cfg0.N = attnK m c :=
  (dats m 0 c).arrAt_eq_of_cover 5 (attnK m c) (fun t _ => flushed_attn m c t) cover_attn

/-- The output array ends holding the attention output of the launched arrays. -/
theorem final_out (c : Dev nD) : (dats m 0 c).arrAt 4 cfg0.N = outK m c :=
  (dats m 0 c).arrAt_eq_of_cover 4 (outK m c) (fun t _ => flushed_out m c t) cover_out

/-- The kernel's run, read: both result arrays at their functions of the launched arrays, the arguments unchanged. -/
theorem run : θ_run defs (onTc (τ := τ) (main (F := Ideal))) ⟨m, fun _ => 0, ρ⟩ fun r => ∀ c : Dev nD,
      r.2.mem ((c : Thread nD τ).loc main_v1_0) = outK m c
      ∧ r.2.mem ((c : Thread nD τ).loc main_v1_1) = attnK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2.1.trans (final_attn m c), (h c).2.2⟩)
    (Value.run_blocks m ρ)

end Cert.KernelIdeal.Whole

end
-- ==== Proof.RefValue.lean ====
/-
  What the reference computes, read one element at a time (at the ideal values): its softmax matrix is the
  softmax of the masked scores with the contraction divided by 8, and its output is that matrix contracted against
  the values.
-/
import proofs.«428626_j71528385347805_3_alg».proof.Proof.Gen.ReferenceIdeal.Read
import proofs.«428626_j71528385347805_3_alg».proof.Proof.Softmax
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attention

variable (x0 x1 x2 : (⟨S96x1024x64, .f32⟩ : BufTy).Contents (Elt Ideal)) (x4 : (⟨S96x1024x1024, .i1⟩ : BufTy).Contents (Elt Ideal))

/-! ## Index bookkeeping: the generated index maps at an index given by its coordinates -/

theorem lq (b : Fin 96) (i j : Fin 1024) (k : Fin 64) : lidx_main_v0 (ix3 b i j) k = ix3 b i k :=
  funext fun a => Fin.ext (by match a with | ⟨0, _⟩ => rfl | ⟨1, _⟩ => rfl | ⟨2, _⟩ => rfl)
theorem rk (b : Fin 96) (i j : Fin 1024) (k : Fin 64) : ridx_main_v0 (ix3 b i j) k = ix3 b j k :=
  funext fun a => Fin.ext (by match a with | ⟨0, _⟩ => rfl | ⟨1, _⟩ => rfl | ⟨2, _⟩ => rfl)
theorem keep_max (b : Fin 96) (i j : Fin 1024) : idx_main_v7 (idx_main_v8 (ix3 b i j)) = ix2 b i :=
  funext fun a => Fin.ext (by match a with | ⟨0, _⟩ => rfl | ⟨1, _⟩ => rfl)
theorem keep_sum (b : Fin 96) (i j : Fin 1024) : idx_main_v12 (idx_main_v13 (ix3 b i j)) = ix2 b i :=
  funext fun a => Fin.ext (by match a with | ⟨0, _⟩ => rfl | ⟨1, _⟩ => rfl)
theorem row_at (b : Fin 96) (i : Fin 1024) (k : Fin 1024) : idx_main_v11 (ix2 b i) k = ix3 b i k :=
  funext fun a => Fin.ext (by match a with | ⟨0, _⟩ => rfl | ⟨1, _⟩ => rfl | ⟨2, _⟩ => rfl)
theorem lp (b : Fin 96) (i : Fin 1024) (e : Fin 64) (k : Fin 1024) : lidx_main_v15 (ix3 b i e) k = ix3 b i k :=
  funext fun a => Fin.ext (by match a with | ⟨0, _⟩ => rfl | ⟨1, _⟩ => rfl | ⟨2, _⟩ => rfl)
theorem rv (b : Fin 96) (i : Fin 1024) (e : Fin 64) (k : Fin 1024) : ridx_main_v15 (ix3 b i e) k = ix3 b k e :=
  funext fun a => Fin.ext (by match a with | ⟨0, _⟩ => rfl | ⟨1, _⟩ => rfl | ⟨2, _⟩ => rfl)

/-! ## The stages -/

/-- The masked scores at (b, i, j): the filler where the mask is set, else the contraction divided by 8. -/
theorem masked_apply (b : Fin 96) (i j : Fin 1024) :
    val_main_v3 (F := Ideal) x0 x1 x4 (ix3 b i j) = maskedRow (scoreDivided x0 x1 b i) (fun j' => x4 (ix3 b i j')) j := by
  rw [val_main_v3_apply, val_main_call0_v1_apply, val_main_call0_v0_apply, val_main_cst_0_apply, val_main_v2_apply,
    val_main_v0_apply, val_main_v1_apply, val_main_cst_apply]
  simp only [lq, rk]
  rfl

/-- The row maximum at (b, i): the extra maximum against minus infinity changes nothing. -/
theorem rowmax_apply (b : Fin 96) (i : Fin 1024) :
    val_main_v6 (F := Ideal) x0 x1 x4 (ix2 b i) = rowMax (fun j => val_main_v3 (F := Ideal) x0 x1 x4 (ix3 b i j)) := by
  rw [val_main_v6_apply, val_main_v5_apply, val_main_cst_2_apply]
  unfold val_main_v4
  rw [Host.reduce_eq_fold_single FloatOps.maximumf _ _ reducesTo_S96x1024x1024_S96x1024_d2 (by decide) h_S_ (ix2 b i),
    val_main_cst_1_apply, Ideal.maximumf_def, Ideal.ofBits_def, lit_negInf, max_bot_left]
  unfold rowMax
  refine congrArg (Finset.fold max ⊥ · Finset.univ) (funext fun k => ?_)
  exact congrArg (val_main_v3 (F := Ideal) x0 x1 x4) (funext fun a => Fin.ext (by match a with | ⟨0, _⟩ => rfl | ⟨1, _⟩ => rfl | ⟨2, _⟩ => rfl))

/-- The shifted exponential at (b, i, j). -/
theorem exp_apply (b : Fin 96) (i j : Fin 1024) :
    val_main_v10 (F := Ideal) x0 x1 x4 (ix3 b i j) = rowExp (fun j' => val_main_v3 (F := Ideal) x0 x1 x4 (ix3 b i j')) j := by
  rw [val_main_v10_apply, val_main_v9_apply, val_main_v8_apply, val_main_v7_apply, keep_max, rowmax_apply]
  rfl

/-- The row sum spread back at (b, i, j). -/
theorem sum_apply (b : Fin 96) (i j : Fin 1024) :
    val_main_v13 (F := Ideal) x0 x1 x4 (ix3 b i j) = ∑ j' : Fin 1024, rowExp (fun j'' => val_main_v3 (F := Ideal) x0 x1 x4 (ix3 b i j'')) j' := by
  rw [val_main_v13_apply, val_main_v12_apply, keep_sum, val_main_v11_apply, val_main_cst_3_apply, Ideal.ofBits_def,
    Ideal.ofBits_zero_f32, zero_add]
  exact Finset.sum_congr rfl fun k _ => by rw [row_at, exp_apply]

/-- The softmax matrix of the reference is the softmax of the masked scores with the contraction divided by 8. -/
theorem attn_eq : val_main_v14 (F := Ideal) x0 x1 x4 = attnOf (scoreDivided x0 x1) x4 := by
  funext idx
  obtain ⟨b, i, j, rfl⟩ : ∃ (b : Fin 96) (i j : Fin 1024), idx = ix3 b i j := ⟨idx 0, idx 1, idx 2, eq_ix3 idx⟩
  rw [val_main_v14_apply, exp_apply, sum_apply]
  show softmaxRow (fun j' => val_main_v3 (F := Ideal) x0 x1 x4 (ix3 b i j')) j = softmaxRow _ j
  exact congrArg (softmaxRow · j) (funext fun j' => masked_apply x0 x1 x4 b i j')

/-- The output of the reference is that matrix contracted against the values. -/
theorem out_eq : val_main_v15 (F := Ideal) x0 x1 x2 x4 = outOf (scoreDivided x0 x1) x4 x2 := by
  funext idx
  obtain ⟨b, i, e, rfl⟩ : ∃ (b : Fin 96) (i : Fin 1024) (e : Fin 64), idx = ix3 b i e := ⟨idx 0, idx 1, idx 2, eq_ix3 idx⟩
  rw [val_main_v15_apply, attn_eq]
  exact Finset.sum_congr rfl fun k _ => by rw [lp, rv]

end Cert.ReferenceIdeal.RefValue

end
-- ==== Proof.FiniteInputs.lean ====
/-
  The precondition read back: where it holds, every query entry and every key entry is a real number
  (its absolute value is strictly below plus infinity, which excludes both infinities).
-/
import proofs.«428626_j71528385347805_3_alg».proof.Pre_finite_inputs
import proofs.«428626_j71528385347805_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

/-- The pattern of plus infinity denotes the top of the extended reals. -/
theorem lit_posInf : Ideal.ofBits .f32 0x7F800000#32 = (⊤ : EReal) := by
  simp [Ideal.ofBits, Ideal.ieee]

/-- An extended real whose absolute value is strictly below plus infinity is a real number. -/
theorem real_of_abs_lt (x : EReal) (h : Ideal.cmp .olt (max x (-x)) (Ideal.ofBits .f32 0x7F800000#32) = 1#1) :
    ∃ r : ℝ, x = (r : EReal) := by
  rw [lit_posInf] at h
  induction x using EReal.rec with
  | bot => simp [Ideal.cmp] at h
  | top => simp [Ideal.cmp] at h
  | coe r => exact ⟨r, rfl⟩

/-- Where the precondition evaluates to true, the first two arguments hold real numbers only. -/
theorem real_queries_keys (a0 a1 a2 : FVec Ideal S96x1024x64 .f32) (a3 : FVec Ideal S1 .f32) (a4 : IVec S96x1024x1024 1)
    (h : fn (F := Ideal) a0 a1 a2 a3 a4 = fun _ => 1#1) :
    (∀ i, ∃ r : ℝ, a0 i = (r : EReal)) ∧ (∀ i, ∃ r : ℝ, a1 i = (r : EReal)) := by
  have h0 := congrFun h ValueIdx.ix0
  dsimp only [fn, fn_part1, Idealize.ShloMosaic.andi] at h0
  rw [IntOp.andi_eq_one, IntOp.andi_eq_one, IntOp.andi_eq_one] at h0
  obtain ⟨⟨⟨h3, h7⟩, -⟩, -⟩ := h0
  haveI : Subsingleton S_.Idx := ⟨fun a b => funext fun d => d.elim0⟩
  refine ⟨fun i => ?_, fun i => ?_⟩
  · exact real_of_abs_lt _ (Host.reduce_andi_all _ _ _ _ _ h3 i)
  · exact real_of_abs_lt _ (Host.reduce_andi_all _ _ _ _ _ h7 i)

end Cert.Pre_finite_inputs.Decode

end
-- ==== Proof.lean ====
/-
  Masked scaled-dot-product attention: a tiled kernel against the plain formula.

  Both programs compute, for each of 96 batch entries, the 1024 x 1024 softmax matrix of the masked scores
  (query row against key row, contracted over 64 features, at temperature 8, a set mask bit replacing the score by a
  fixed finite filler) and that matrix contracted against the 1024 x 64 values. The kernel works on tiles of 256 query
  rows and scales each query entry by 1/8 before the contraction; the plain formula divides the contraction by 8.
  On the extended reals the two scores agree as soon as queries and keys are real numbers, which the precondition
  gives; from the masked scores on, both programs apply the same row maximum, exponential, row sum, quotient and
  second contraction, so the results agree entry by entry. The idealized kernel is the kernel's own text (nothing was
  rewritten), so that conjunct is trivial; the three runs come from the generated run of each program.
-/
import proofs.«428626_j71528385347805_3_alg».proof.Defs
import proofs.«428626_j71528385347805_3_alg».proof.Proof.Gen.Kernel
import proofs.«428626_j71528385347805_3_alg».proof.Proof.Gen.Kernel.Skeleton
import proofs.«428626_j71528385347805_3_alg».proof.Proof.Gen.Kernel.Launch
import proofs.«428626_j71528385347805_3_alg».proof.Proof.Gen.Kernel.Points
import proofs.«428626_j71528385347805_3_alg».proof.Proof.Gen.Kernel.Frame
import proofs.«428626_j71528385347805_3_alg».proof.Proof.Gen.KernelIdeal
import proofs.«428626_j71528385347805_3_alg».proof.Proof.Gen.KernelIdeal.Skeleton
import proofs.«428626_j71528385347805_3_alg».proof.Proof.Gen.KernelIdeal.Launch
import proofs.«428626_j71528385347805_3_alg».proof.Proof.Gen.KernelIdeal.Points
import proofs.«428626_j71528385347805_3_alg».proof.Proof.Gen.KernelIdeal.Frame
import proofs.«428626_j71528385347805_3_alg».proof.Proof.Gen.ReferenceIdeal
import proofs.«428626_j71528385347805_3_alg».proof.Proof.Gen.Pre_finite_inputs
import proofs.«428626_j71528385347805_3_alg».proof.Proof.Gen.KernelIdeal.Value
import proofs.«428626_j71528385347805_3_alg».proof.Proof.Gen.ReferenceIdeal.Run
import proofs.«428626_j71528385347805_3_alg».proof.Proof.Gen.ReferenceIdeal.Read
import proofs.«428626_j71528385347805_3_alg».proof.Proof.Softmax
import proofs.«428626_j71528385347805_3_alg».proof.Proof.KernelBlock
import proofs.«428626_j71528385347805_3_alg».proof.Proof.KernelWhole
import proofs.«428626_j71528385347805_3_alg».proof.Proof.RefValue
import proofs.«428626_j71528385347805_3_alg».proof.Proof.FiniteInputs
import Idealize.ShloMosaic.Adequacy
import Idealize.ShloMosaic.Init

noncomputable section

namespace Cert.Proof

open Idealize.ShloMosaic Idealize.ShloMosaic.TcCoe Idealize.SL.Sem Cert.Attention

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The plain formula runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Under the precondition the two ways of applying the temperature give the same scores. -/
theorem scores_agree (m : (ℓ : Loc Cert.KernelIdeal.nD Cert.KernelIdeal.τ Cert.KernelIdeal.sig) → Buf (Elt Ideal) ℓ)
    (hpre : Cert.Pre_KernelIdeal m) (c : Dev Cert.KernelIdeal.nD) :
    scoreScaledQuery (Cert.KernelIdeal.Whole.qArr m c) (Cert.KernelIdeal.Whole.kArr m c)
      = scoreDivided (Cert.KernelIdeal.Whole.qArr m c) (Cert.KernelIdeal.Whole.kArr m c) := by
  obtain ⟨hq, hk⟩ := Cert.Pre_finite_inputs.Decode.real_queries_keys _ _ _ _ _ (hpre c)
  exact funext fun b => funext fun i => funext fun j => score_scaling _ _ hq hk b i j

/-- From memories that agree on the arguments both programs end with the same two result arrays: the attention
    output and the softmax matrix of the launched arrays. -/
theorem algebraic : Cert.algebraic_KernelIdeal_ReferenceIdeal := by
  intro m ρ m' ρ' hpre hagree
  refine ⟨fun c => Cert.KernelIdeal.Whole.outK m c, fun c => Cert.KernelIdeal.Whole.attnK m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.2]
    refine ((Cert.ReferenceIdeal.Read.val_main_v15_eq _ _ _ _).trans (Cert.ReferenceIdeal.RefValue.out_eq _ _ _ _)).trans ?_
    exact (congrArg (fun sc => outOf sc (Cert.KernelIdeal.Whole.maskArr m c) (Cert.KernelIdeal.Whole.vArr m c)) (scores_agree m hpre c)).symm
  · rw [(hagree c).1, (hagree c).2.1, (hagree c).2.2.2.2]
    refine ((Cert.ReferenceIdeal.Read.val_main_v14_eq _ _ _).trans (Cert.ReferenceIdeal.RefValue.attn_eq _ _ _)).trans ?_
    exact (congrArg (fun sc => attnOf sc (Cert.KernelIdeal.Whole.maskArr m c)) (scores_agree m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
